-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S8x64x128 : Shape := ⟨3, ![8, 64, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S8x64x128 : S_.BroadcastsInDim S8x64x128 (![] : Fin 0 → Fin S8x64x128.rank)
  reducesTo_S8x64x128_S_d0_1_2 : S8x64x128.ReducesTo [0, 1, 2] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_
  bcast_S_S1024x128 : S_.BroadcastsInDim S1024x128 (![] : Fin 0 → Fin S1024x128.rank)
  reducesTo_S1024x128_S_d0_1 : S1024x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S8x128x128 .f32) (main_arg5 : FVec F S8x128 .f32) (main_arg6 : FVec F S1024x128 .f32) (main_arg7 : FVec F S128 .f32) (main_v13 : IVec S_ 1) (main_v16 : IVec S8x128 1) : IVec S_ 1 :=
  let main_c_5 : IVec S_ 1 := constantI S_ 1 1#1
  let main_v17 : IVec S_ 1 := (fun x v => Host.reduce IntOp.andi x v reducesTo_S8x128_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  let main_v29 : FVec F S1024x128 .f32 := Host.absf main_arg6
  let main_cst_10 : FVec F S_ .f32 := constant S_ .f32 0x7F800000#32
  let main_v30 : FVec F S1024x128 .f32 := broadcastInDim S1024x128 ![] bcast_S_S1024x128 main_cst_10
  let main_v31 : IVec S1024x128 1 := cmpf .olt main_v29 main_v30
  let main_c_11 : IVec S_ 1 := constantI S_ 1 1#1
  let main_v32 : IVec S_ 1 := (fun x v => Host.reduce IntOp.andi x v reducesTo_S1024x128_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S8x64x128 .f32) (main_arg2 : FVec F S8x128x128 .f32) (main_arg3 : FVec F S8x128 .f32) (main_arg4 : FVec F S8x128x128 .f32) (main_arg5 : FVec F S8x128 .f32) (main_arg6 : FVec F S1024x128 .f32) (main_arg7 : FVec F S128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S8x64x128 .f32 := Host.absf main_arg1
  let main_cst_0 : FVec F S_ .f32 := constant S_ .f32 0x7F800000#32
  let main_v5 : FVec F S8x64x128 .f32 := broadcastInDim S8x64x128 ![] bcast_S_S8x64x128 main_cst_0
  let main_v6 : IVec S8x64x128 1 := cmpf .olt main_v4 main_v5
  let main_c_1 : IVec S_ 1 := constantI S_ 1 1#1
  let main_v7 : IVec S_ 1 := (fun x v => Host.reduce IntOp.andi x v reducesTo_S8x64x128_S_d0_1_2 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S8x128 .f32 := Host.absf main_arg3
  let main_cst_4 : FVec F S_ .f32 := constant S_ .f32 0x7F800000#32
  let main_v15 : FVec F S8x128 .f32 := broadcastInDim S8x128 ![] bcast_S_S8x128 main_cst_4
  let main_v16 : IVec S8x128 1 := cmpf .olt main_v14 main_v15
  fn_part1 (F := F) main_arg4 main_arg5 main_arg6 main_arg7 main_v13 main_v16
-- ==== Kernel.lean ====
abbrev S262144x128 : Shape := ⟨2, ![262144, 128]⟩
abbrev S8x64x128 : Shape := ⟨3, ![8, 64, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S8x1x128 : Shape := ⟨3, ![8, 1, 128]⟩
abbrev S_ : Shape := ⟨0, ![]⟩
abbrev S8x64 : Shape := ⟨2, ![8, 64]⟩
abbrev S8x64x1 : Shape := ⟨3, ![8, 64, 1]⟩
abbrev S8192x128 : Shape := ⟨2, ![8192, 128]⟩
abbrev S1x64x128 : Shape := ⟨3, ![1, 64, 128]⟩
abbrev S64x128 : Shape := ⟨2, ![64, 128]⟩
abbrev S1x128x128 : Shape := ⟨3, ![1, 128, 128]⟩
abbrev S128x128 : Shape := ⟨2, ![128, 128]⟩
abbrev S128x64 : Shape := ⟨2, ![128, 64]⟩
abbrev S8192x64 : Shape := ⟨2, ![8192, 64]⟩
abbrev S8192 : Shape := ⟨1, ![8192]⟩
abbrev S8192x1 : Shape := ⟨2, ![8192, 1]⟩
abbrev S1x128 : Shape := ⟨2, ![1, 128]⟩

abbrev nBuf : Space → Nat
  | .hbm => 32
  | .vmem => 8
  | .smem => 0
  | _ => 0

abbrev bufTy : (tb : Table) → Fin (tcTables nBuf tb) → BufTy
  | .hbm, ⟨0, _⟩ => ⟨S262144x128, .f32⟩
  | .hbm, ⟨1, _⟩ => ⟨S8x64x128, .f32⟩
  | .hbm, ⟨2, _⟩ => ⟨S8x128x128, .f32⟩
  | .hbm, ⟨3, _⟩ => ⟨S8x128, .f32⟩
  | .hbm, ⟨4, _⟩ => ⟨S8x128x128, .f32⟩
  | .hbm, ⟨5, _⟩ => ⟨S8x128, .f32⟩
  | .hbm, ⟨6, _⟩ => ⟨S1024x128, .f32⟩
  | .hbm, ⟨7, _⟩ => ⟨S128, .f32⟩
  | .hbm, ⟨8, _⟩ => ⟨S8x64x128, .f32⟩
  | .hbm, ⟨9, _⟩ => ⟨S8x1x128, .f32⟩
  | .hbm, ⟨10, _⟩ => ⟨S8x64x128, .f32⟩
  | .hbm, ⟨11, _⟩ => ⟨S8x64x128, .f32⟩
  | .hbm, ⟨12, _⟩ => ⟨S_, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S8x64x1, .f32⟩
  | .hbm, ⟨18, _⟩ => ⟨S8x64x128, .f32⟩
  | .hbm, ⟨19, _⟩ => ⟨S8x64x128, .f32⟩
  | .hbm, ⟨20, _⟩ => ⟨S8x64x128, .f32⟩
  | .hbm, ⟨21, _⟩ => ⟨S_, .f32⟩
  | .hbm, ⟨22, _⟩ => ⟨S8x64, .f32⟩
  | .hbm, ⟨23, _⟩ => ⟨S8x64x1, .f32⟩
  | .hbm, ⟨24, _⟩ => ⟨S8x64x128, .f32⟩
  | .hbm, ⟨25, _⟩ => ⟨S8x64x128, .f32⟩
  | .hbm, ⟨26, _⟩ => ⟨S8x64x128, .f32⟩
  | .hbm, ⟨27, _⟩ => ⟨S8x1x128, .f32⟩
  | .hbm, ⟨28, _⟩ => ⟨S8x64x128, .f32⟩
  | .hbm, ⟨29, _⟩ => ⟨S8x64x128, .f32⟩
  | .hbm, ⟨30, _⟩ => ⟨S8x128x128, .f32⟩
  | .hbm, ⟨31, _⟩ => ⟨S262144x128, .f32⟩
  | .local _ .vmem, ⟨0, _⟩ => ⟨S8192x128, .f32⟩
  | .local _ .vmem, ⟨1, _⟩ => ⟨S8192x128, .f32⟩
  | .local _ .vmem, ⟨2, _⟩ => ⟨S8x64x128, .f32⟩
  | .local _ .vmem, ⟨3, _⟩ => ⟨S8x64x128, .f32⟩
  | .local _ .vmem, ⟨4, _⟩ => ⟨S8x128x128, .f32⟩
  | .local _ .vmem, ⟨5, _⟩ => ⟨S128, .f32⟩
  | .local _ .vmem, ⟨6, _⟩ => ⟨S8192x128, .f32⟩
  | .local _ .vmem, ⟨7, _⟩ => ⟨S8192x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S8x128_S8x1x128_0_2 : S8x128.BroadcastsInDim S8x1x128 (![0, 2] : Fin 2 → Fin S8x1x128.rank)
  bcast_S8x1x128_S8x64x128_0_1_2 : S8x1x128.BroadcastsInDim S8x64x128 (![0, 1, 2] : Fin 3 → Fin S8x64x128.rank)
  reducesTo_S8x64x128_S8x64_d2 : S8x64x128.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x128_0_1_2 : S8x64x1.BroadcastsInDim S8x64x128 (![0, 1, 2] : Fin 3 → Fin S8x64x128.rank)
  shapeCasts_S1024x128_S8x128x128 : S1024x128.ShapeCasts S8x128x128
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S8x64x128_S1x64x128_0_0_0 : ∀ a, (![0, 0, 0] : Fin 3 → Nat) a + S1x64x128.size a ≤ S8x64x128.size a
  h_S1x64x128 : 0 < S1x64x128.numel
  shapeCasts_S1x64x128_S64x128 : S1x64x128.ShapeCasts S64x128
  inb_S8x128x128_S1x128x128_0_0_0 : ∀ a, (![0, 0, 0] : Fin 3 → Nat) a + S1x128x128.size a ≤ S8x128x128.size a
  h_S1x128x128 : 0 < S1x128x128.numel
  shapeCasts_S1x128x128_S128x128 : S1x128x128.ShapeCasts S128x128
  transposes_S64x128_p1_0_S128x64 : S64x128.Transposes [1, 0] S128x64
  reduces_S8192x64_S8192 : S8192x64.Reduces [1] S8192
  shapeCasts_S8192_S8192x1 : S8192.ShapeCasts S8192x1
  broadcasts_S8192x1_S8192x64 : S8192x1.Broadcasts S8192x64
  inb_S8x64x128_S1x64x128_1_0_0 : ∀ a, (![1, 0, 0] : Fin 3 → Nat) a + S1x64x128.size a ≤ S8x64x128.size a
  inb_S8x128x128_S1x128x128_1_0_0 : ∀ a, (![1, 0, 0] : Fin 3 → Nat) a + S1x128x128.size a ≤ S8x128x128.size a
  inb_S8x64x128_S1x64x128_2_0_0 : ∀ a, (![2, 0, 0] : Fin 3 → Nat) a + S1x64x128.size a ≤ S8x64x128.size a
  inb_S8x128x128_S1x128x128_2_0_0 : ∀ a, (![2, 0, 0] : Fin 3 → Nat) a + S1x128x128.size a ≤ S8x128x128.size a
  inb_S8x64x128_S1x64x128_3_0_0 : ∀ a, (![3, 0, 0] : Fin 3 → Nat) a + S1x64x128.size a ≤ S8x64x128.size a
  inb_S8x128x128_S1x128x128_3_0_0 : ∀ a, (![3, 0, 0] : Fin 3 → Nat) a + S1x128x128.size a ≤ S8x128x128.size a
  inb_S8x64x128_S1x64x128_4_0_0 : ∀ a, (![4, 0, 0] : Fin 3 → Nat) a + S1x64x128.size a ≤ S8x64x128.size a
  inb_S8x128x128_S1x128x128_4_0_0 : ∀ a, (![4, 0, 0] : Fin 3 → Nat) a + S1x128x128.size a ≤ S8x128x128.size a
  inb_S8x64x128_S1x64x128_5_0_0 : ∀ a, (![5, 0, 0] : Fin 3 → Nat) a + S1x64x128.size a ≤ S8x64x128.size a
  inb_S8x128x128_S1x128x128_5_0_0 : ∀ a, (![5, 0, 0] : Fin 3 → Nat) a + S1x128x128.size a ≤ S8x128x128.size a
  inb_S8x64x128_S1x64x128_6_0_0 : ∀ a, (![6, 0, 0] : Fin 3 → Nat) a + S1x64x128.size a ≤ S8x64x128.size a
  inb_S8x128x128_S1x128x128_6_0_0 : ∀ a, (![6, 0, 0] : Fin 3 → Nat) a + S1x128x128.size a ≤ S8x128x128.size a
  inb_S8x64x128_S1x64x128_7_0_0 : ∀ a, (![7, 0, 0] : Fin 3 → Nat) a + S1x64x128.size a ≤ S8x64x128.size a
  inb_S8x128x128_S1x128x128_7_0_0 : ∀ a, (![7, 0, 0] : Fin 3 → Nat) a + S1x128x128.size a ≤ S8x128x128.size a
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  dot_S8x64x128_S8x128x128_S8x64x128_2_1_1_2_0_0_wf : DotDims.WF S8x64x128 S8x128x128 S8x64x128 [2] [1] [1] [2] [0] [0]
  dot_S8192x128_S128x64_S8192x64_1_0_0_1_n_n_wf : DotDims.WF S8192x128 S128x64 S8192x64 [1] [0] [0] [1] [] []
  dot_S8192x64_S64x128_S8192x128_1_0_0_1_n_n_wf : DotDims.WF S8192x64 S64x128 S8192x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64x128.size a ≤ S8x64x128.size a
  hwx0_1 : ∀ i : grid0.Coords, EltTy.bits .f32 = 32 ∨ (Rect.block (s := S8x64x128) S8x64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x64x128.size a ≤ S8x64x128.size a
  hwx0_2 : ∀ i : grid0.Coords, EltTy.bits .f32 = 32 ∨ (Rect.block (s := S8x64x128) S8x64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128x128.size a ≤ S8x128x128.size a
  hwx0_3 : ∀ i : grid0.Coords, EltTy.bits .f32 = 32 ∨ (Rect.block (s := S8x128x128) S8x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8192x128.size a ≤ S262144x128.size a
  hwx0_5 : ∀ i : grid0.Coords, EltTy.bits .f32 = 32 ∨ (Rect.block (s := S262144x128) S8192x128.size (cc0_transform_5 i) (hinb0_5 i)).WholeWords (EltTy.packing .f32)

variable [Facts₀]

def dot_S8x64x128_S8x128x128_S8x64x128_2_1_1_2_0_0 : DotDims S8x64x128 S8x128x128 S8x64x128 where
  lhsContracting := [2]
  rhsContracting := [1]
  lhsNonContracting := [1]
  rhsNonContracting := [2]
  lhsBatch := [0]
  rhsBatch := [0]
  wf := dot_S8x64x128_S8x128x128_S8x64x128_2_1_1_2_0_0_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S8x64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S8x64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S8x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S8192x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x128 : Shape := ⟨2, ![262144, 128]⟩
abbrev S8x64x128 : Shape := ⟨3, ![8, 64, 128]⟩
abbrev S8x128x128 : Shape := ⟨3, ![8, 128, 128]⟩
abbrev S8x128 : Shape := ⟨2, ![8, 128]⟩
abbrev S1024x128 : Shape := ⟨2, ![1024, 128]⟩
abbrev S128 : Shape := ⟨1, ![128]⟩
abbrev S8x1x128 : Shape := ⟨3, ![8, 1, 128]⟩
abbrev S_ : Shape := ⟨0, ![]⟩
abbrev S8x64 : Shape := ⟨2, ![8, 64]⟩
abbrev S8x64x1 : Shape := ⟨3, ![8, 64, 1]⟩
abbrev S8x64x262144 : Shape := ⟨3, ![8, 64, 262144]⟩
abbrev S8x262144x64 : Shape := ⟨3, ![8, 262144, 64]⟩
abbrev S8x262144 : Shape := ⟨2, ![8, 262144]⟩
abbrev S8x262144x1 : Shape := ⟨3, ![8, 262144, 1]⟩
abbrev S8x262144x128 : Shape := ⟨3, ![8, 262144, 128]⟩
abbrev S262144x8x128 : Shape := ⟨3, ![262144, 8, 128]⟩
abbrev S262144x1024 : Shape := ⟨2, ![262144, 1024]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S8x64x128, .f32⟩
  | .hbm, ⟨2, _⟩ => ⟨S8x128x128, .f32⟩
  | .hbm, ⟨3, _⟩ => ⟨S8x128, .f32⟩
  | .hbm, ⟨4, _⟩ => ⟨S8x128x128, .f32⟩
  | .hbm, ⟨5, _⟩ => ⟨S8x128, .f32⟩
  | .hbm, ⟨6, _⟩ => ⟨S1024x128, .f32⟩
  | .hbm, ⟨7, _⟩ => ⟨S128, .f32⟩
  | .hbm, ⟨8, _⟩ => ⟨S8x64x128, .f32⟩
  | .hbm, ⟨9, _⟩ => ⟨S8x1x128, .f32⟩
  | .hbm, ⟨10, _⟩ => ⟨S8x64x128, .f32⟩
  | .hbm, ⟨11, _⟩ => ⟨S8x64x128, .f32⟩
  | .hbm, ⟨12, _⟩ => ⟨S_, .f32⟩
  | .hbm, ⟨13, _⟩ => ⟨S8x64, .f32⟩
  | .hbm, ⟨14, _⟩ => ⟨S_, .f32⟩
  | .hbm, ⟨15, _⟩ => ⟨S8x64, .f32⟩
  | .hbm, ⟨16, _⟩ => ⟨S8x64, .f32⟩
  | .hbm, ⟨17, _⟩ => ⟨S8x64x1, .f32⟩
  | .hbm, ⟨18, _⟩ => ⟨S8x64x128, .f32⟩
  | .hbm, ⟨19, _⟩ => ⟨S8x64x128, .f32⟩
  | .hbm, ⟨20, _⟩ => ⟨S8x64x128, .f32⟩
  | .hbm, ⟨21, _⟩ => ⟨S_, .f32⟩
  | .hbm, ⟨22, _⟩ => ⟨S8x64, .f32⟩
  | .hbm, ⟨23, _⟩ => ⟨S8x64x1, .f32⟩
  | .hbm, ⟨24, _⟩ => ⟨S8x64x128, .f32⟩
  | .hbm, ⟨25, _⟩ => ⟨S8x64x128, .f32⟩
  | .hbm, ⟨26, _⟩ => ⟨S8x64x128, .f32⟩
  | .hbm, ⟨27, _⟩ => ⟨S8x1x128, .f32⟩
  | .hbm, ⟨28, _⟩ => ⟨S8x64x128, .f32⟩
  | .hbm, ⟨29, _⟩ => ⟨S8x64x128, .f32⟩
  | .hbm, ⟨30, _⟩ => ⟨S8x64x262144, .f32⟩
  | .hbm, ⟨31, _⟩ => ⟨S8x262144x64, .f32⟩
  | .hbm, ⟨32, _⟩ => ⟨S_, .f32⟩
  | .hbm, ⟨33, _⟩ => ⟨S8x262144, .f32⟩
  | .hbm, ⟨34, _⟩ => ⟨S_, .f32⟩
  | .hbm, ⟨35, _⟩ => ⟨S8x262144, .f32⟩
  | .hbm, ⟨36, _⟩ => ⟨S8x262144, .f32⟩
  | .hbm, ⟨37, _⟩ => ⟨S8x262144x1, .f32⟩
  | .hbm, ⟨38, _⟩ => ⟨S8x262144x64, .f32⟩
  | .hbm, ⟨39, _⟩ => ⟨S8x262144x64, .f32⟩
  | .hbm, ⟨40, _⟩ => ⟨S8x262144x64, .f32⟩
  | .hbm, ⟨41, _⟩ => ⟨S_, .f32⟩
  | .hbm, ⟨42, _⟩ => ⟨S8x262144, .f32⟩
  | .hbm, ⟨43, _⟩ => ⟨S8x262144x1, .f32⟩
  | .hbm, ⟨44, _⟩ => ⟨S8x262144x64, .f32⟩
  | .hbm, ⟨45, _⟩ => ⟨S8x262144x64, .f32⟩
  | .hbm, ⟨46, _⟩ => ⟨S8x262144x128, .f32⟩
  | .hbm, ⟨47, _⟩ => ⟨S262144x8x128, .f32⟩
  | .hbm, ⟨48, _⟩ => ⟨S262144x1024, .f32⟩
  | .hbm, ⟨49, _⟩ => ⟨S262144x128, .f32⟩
  | .hbm, ⟨50, _⟩ => ⟨S1x128, .f32⟩
  | .hbm, ⟨51, _⟩ => ⟨S262144x128, .f32⟩
  | .hbm, ⟨52, _⟩ => ⟨S262144x128, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]

class Facts₀ : Prop where
  bcast_S8x128_S8x1x128_0_2 : S8x128.BroadcastsInDim S8x1x128 (![0, 2] : Fin 2 → Fin S8x1x128.rank)
  bcast_S8x1x128_S8x64x128_0_1_2 : S8x1x128.BroadcastsInDim S8x64x128 (![0, 1, 2] : Fin 3 → Fin S8x64x128.rank)
  reducesTo_S8x64x128_S8x64_d2 : S8x64x128.ReducesTo [2] S8x64
  h_S_ : 0 < S_.numel
  bcast_S_S8x64 : S_.BroadcastsInDim S8x64 (![] : Fin 0 → Fin S8x64.rank)
  bcast_S8x64_S8x64x1_0_1 : S8x64.BroadcastsInDim S8x64x1 (![0, 1] : Fin 2 → Fin S8x64x1.rank)
  bcast_S8x64x1_S8x64x128_0_1_2 : S8x64x1.BroadcastsInDim S8x64x128 (![0, 1, 2] : Fin 3 → Fin S8x64x128.rank)
  transposes_S8x64x262144_S8x262144x64_0_2_1 : S8x64x262144.Transposes [0, 2, 1] S8x262144x64
  reducesTo_S8x262144x64_S8x262144_d2 : S8x262144x64.ReducesTo [2] S8x262144
  bcast_S_S8x262144 : S_.BroadcastsInDim S8x262144 (![] : Fin 0 → Fin S8x262144.rank)
  bcast_S8x262144_S8x262144x1_0_1 : S8x262144.BroadcastsInDim S8x262144x1 (![0, 1] : Fin 2 → Fin S8x262144x1.rank)
  bcast_S8x262144x1_S8x262144x64_0_1_2 : S8x262144x1.BroadcastsInDim S8x262144x64 (![0, 1, 2] : Fin 3 → Fin S8x262144x64.rank)
  transposes_S8x262144x128_S262144x8x128_1_0_2 : S8x262144x128.Transposes [1, 0, 2] S262144x8x128
  shapeCasts_S262144x8x128_S262144x1024 : S262144x8x128.ShapeCasts S262144x1024
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  dot_S8x64x128_S8x128x128_S8x64x128_2_1_1_2_0_0_wf : DotDims.WF S8x64x128 S8x128x128 S8x64x128 [2] [1] [1] [2] [0] [0]
  dot_S8x64x128_S262144x128_S8x64x262144_2_1_01_0_n_n_wf : DotDims.WF S8x64x128 S262144x128 S8x64x262144 [2] [1] [0, 1] [0] [] []
  dot_S8x262144x64_S8x64x128_S8x262144x128_2_1_1_2_0_0_wf : DotDims.WF S8x262144x64 S8x64x128 S8x262144x128 [2] [1] [1] [2] [0] [0]
  dot_S262144x1024_S1024x128_S262144x128_1_0_0_1_n_n_wf : DotDims.WF S262144x1024 S1024x128 S262144x128 [1] [0] [0] [1] [] []

variable [Facts₀]

def dot_S8x64x128_S8x128x128_S8x64x128_2_1_1_2_0_0 : DotDims S8x64x128 S8x128x128 S8x64x128 where
  lhsContracting := [2]
  rhsContracting := [1]
  lhsNonContracting := [1]
  rhsNonContracting := [2]
  lhsBatch := [0]
  rhsBatch := [0]
  wf := dot_S8x64x128_S8x128x128_S8x64x128_2_1_1_2_0_0_wf
def dot_S8x64x128_S262144x128_S8x64x262144_2_1_01_0_n_n : DotDims S8x64x128 S262144x128 S8x64x262144 where
  lhsContracting := [2]
  rhsContracting := [1]
  lhsNonContracting := [0, 1]
  rhsNonContracting := [0]
  lhsBatch := []
  rhsBatch := []
  wf := dot_S8x64x128_S262144x128_S8x64x262144_2_1_01_0_n_n_wf
def dot_S8x262144x64_S8x64x128_S8x262144x128_2_1_1_2_0_0 : DotDims S8x262144x64 S8x64x128 S8x262144x128 where
  lhsContracting := [2]
  rhsContracting := [1]
  lhsNonContracting := [1]
  rhsNonContracting := [2]
  lhsBatch := [0]
  rhsBatch := [0]
  wf := dot_S8x262144x64_S8x64x128_S8x262144x128_2_1_1_2_0_0_wf
def dot_S262144x1024_S1024x128_S262144x128_1_0_0_1_n_n : DotDims S262144x1024 S1024x128 S262144x128 where
  lhsContracting := [1]
  rhsContracting := [0]
  lhsNonContracting := [0]
  rhsNonContracting := [1]
  lhsBatch := []
  rhsBatch := []
  wf := dot_S262144x1024_S1024x128_S262144x128_1_0_0_1_n_n_wf

class Facts : Prop extends Facts₀ where

variable [Facts]
-- ==== Proof.Spec.lean ====
/-
  Attention of key rows against per-head memory banks, ONE KEY ROW AT A TIME, on the extended reals: the function
  both programs compute, written once with no tiling, no layout and no float format in it.

  For a key row `x` (128 entries) and one head's memory keys `mk` and memory values `mv` (64 slots of 128
  entries each): the logits `a m = ∑ k, x k · mk m k`; the softmax over the 64 slots, in the shifted form both
  programs print — the shift is `max (−∞) (the fold of max from −∞ over the slots)`, the numerator
  `exp (a m − shift)`, the denominator the sum of the numerators —; the head's output
  `∑ m, weight m · mv m v`; its projection through the head's 128 × 128 block of the final weight; and the
  row's result: the eight heads' projections summed, plus the bias.
  Two re-indexings of finite sums on the extended reals (an additive commutative monoid: nothing here needs
  finiteness) are proved below: a sum over `Fin 1024` split as heads × lanes, and eight terms added one after
  the other from zero.
-/
import Idealize.ShloMosaic.PureOps.Ideal
import Idealize.ShloMosaic.Lib.ValueIdx

noncomputable section

open scoped BigOperators

namespace Cert.BankAttn

open Idealize.ShloMosaic Idealize.ShloMosaic.ValueIdx

/-- −∞, as the f32 word both programs start their row maximum from. -/
abbrev negInf : EReal := Ideal.ofBits .f32 0xFF800000#32

/-- A key row's logits against one head's 64 memory keys. -/
def logits (x : Fin 128 → EReal) (mk : Fin 64 → Fin 128 → EReal) (m : Fin 64) : EReal :=
  ∑ k : Fin 128, x k * mk m k

/-- The softmax's shift: the maximum of the 64 logits, folded from −∞ and joined with −∞ once more. -/
def rowMax (a : Fin 64 → EReal) : EReal :=
  max negInf ((Finset.univ : Finset (Fin 64)).fold max negInf a)

/-- The softmax's numerator at slot `m`. -/
def expShift (a : Fin 64 → EReal) (m : Fin 64) : EReal := Ideal.exp (a m - rowMax a)

/-- The softmax weight of slot `m`: its numerator over the sum of the 64 numerators. -/
def weight (a : Fin 64 → EReal) (m : Fin 64) : EReal :=
  Ideal.div (expShift a m) (∑ m' : Fin 64, expShift a m')

/-- One head's output for the row: the memory values averaged by the softmax weights. -/
def headOut (x : Fin 128 → EReal) (mk mv : Fin 64 → Fin 128 → EReal) (v : Fin 128) : EReal :=
  ∑ m : Fin 64, weight (logits x mk) m * mv m v

/-- That output through the head's 128 × 128 block of the final weight. -/
def headProj (x : Fin 128 → EReal) (mk mv : Fin 64 → Fin 128 → EReal) (wf : Fin 128 → Fin 128 → EReal)
    (o : Fin 128) : EReal :=
  ∑ v : Fin 128, headOut x mk mv v * wf v o

/-- The row's result: the eight heads' projections summed, plus the bias. -/
def rowOut (x : Fin 128 → EReal) (MK MV : Fin 8 → Fin 64 → Fin 128 → EReal)
    (W : Fin 8 → Fin 128 → Fin 128 → EReal) (b : Fin 128 → EReal) (o : Fin 128) : EReal :=
  (∑ h : Fin 8, headProj x (MK h) (MV h) (W h) o) + b o

/-- Row `128 h + v` of the 1024-row final weight: head `h`'s block, row `v`. -/
def wrow (h : Fin 8) (v : Fin 128) : Fin 1024 := ⟨128 * h.val + v.val, by have := h.isLt; have := v.isLt; omega⟩

/-- THE RESULT ARRAY as one function of the key array `kk`, the memory keys `MK` and values `MV` (as the host
    prefix of either program leaves them), the final weight `Wf` and the bias `bf`, index by index. -/
def G (kk : (⟨2, ![262144, 128]⟩ : Shape).Idx → EReal) (MK MV : (⟨3, ![8, 64, 128]⟩ : Shape).Idx → EReal)
    (Wf : (⟨2, ![1024, 128]⟩ : Shape).Idx → EReal) (bf : (⟨1, ![128]⟩ : Shape).Idx → EReal) :
    (⟨2, ![262144, 128]⟩ : Shape).Idx → EReal := fun i =>
  rowOut (fun k => kk (ix2 (i 0) k)) (fun h m k => MK (ix3 h m k)) (fun h m v => MV (ix3 h m v))
    (fun h v o => Wf (ix2 (wrow h v) o)) (fun o => bf (ix1 o)) (i 1)

/-- A sum over the 1024 rows of the final weight is the double sum over heads and lanes. -/
theorem sum_heads_lanes (f : Fin 1024 → EReal) : ∑ j : Fin 1024, f j = ∑ h : Fin 8, ∑ v : Fin 128, f (wrow h v) := by
  rw [← Fintype.sum_prod_type', ← Equiv.sum_comp (finProdFinEquiv (m := 8) (n := 128)) f]
  refine Fintype.sum_congr _ _ fun p => congrArg f (Fin.ext ?_)
  show p.2.val + 128 * p.1.val = 128 * p.1.val + p.2.val
  omega

/-- Eight terms added one after the other onto zero are their sum. -/
theorem add8 (d : Fin 8 → EReal) :
    0 + d 0 + d 1 + d 2 + d 3 + d 4 + d 5 + d 6 + d 7 = ∑ h : Fin 8, d h := by
  rw [Fin.sum_univ_eight, zero_add]

end Cert.BankAttn

end
-- ==== Proof.Head.lean ====
/-
  One head of the kernel body as a vector term, and the body's result as eight of them added up.
-/
import proofs.«104489_j45337674776981_1_alg».proof.Proof.Gen.KernelIdeal.Frame
import proofs.«104489_j45337674776981_1_alg».proof.Proof.Spec
import Idealize.ShloMosaic.PureOps.Ideal.Laws
import Idealize.ShloMosaic.Lib.Pipeline.Value
import Idealize.ShloMosaic.Lib.ValueIdx

noncomputable section

namespace Cert.KernelIdeal.Heads

open Cert.KernelIdeal Cert.KernelIdeal.Gen Idealize.ShloMosaic Idealize.ShloMosaic.TcCoe Idealize.SL.Sem

variable {F : FTy → Type} [FloatOps F]

/-- A tile of keys against one head's memory keys: the [8192, 64] logits (the head's [1, 64, 128] slice loses its unit
    axis and is transposed for the product). -/
def attV (kb : FVec F S8192x128 .bf16) (mk3 : Vec F S1x64x128 .f32) : FVec F S8192x64 .f32 :=
  matmul dot_S8192x128_S128x64_S8192x64_1_0_0_1_n_n none kb
    (transpose S128x64 [1, 0] (truncf .bf16 (shapeCast S64x128 mk3 shapeCasts_S1x64x128_S64x128) bitsLt_bf16_f32)
      transposes_S64x128_p1_0_S128x64) (constant S8192x64 .f32 0x00000000#32)

/-- A per-row vector made a column and repeated along the 64 slots. -/
def colV (v : FVec F S8192 .f32) : FVec F S8192x64 .f32 :=
  broadcastTo S8192x64 (shapeCast S8192x1 v shapeCasts_S8192_S8192x1) broadcasts_S8192x1_S8192x64

/-- The softmax's shift per row: the lane maximum from −∞, joined with −∞. -/
def shiftV (A : FVec F S8192x64 .f32) : FVec F S8192 .f32 :=
  maximumf (broadcast S8192 (Scalar.ofBits .f32 0xFF800000#32))
    (multiReduction .maximumf [1] S8192 A 0xFF800000#32 reduces_S8192x64_S8192 (.inl rfl) rfl)

/-- The softmax's numerators. -/
def numV (A : FVec F S8192x64 .f32) : FVec F S8192x64 .f32 := exp (subf A (colV (shiftV A)))

/-- The softmax along the slots. -/
def softmaxV (A : FVec F S8192x64 .f32) : FVec F S8192x64 .f32 :=
  divf (numV A) (colV (multiReduction .add [1] S8192 (numV A) 0x00000000#32 reduces_S8192x64_S8192 (.inl rfl) rfl))

/-- What the body computes for ONE head from the tile of keys `kb` and the head's slices of the memory keys, the
    memory values and the final weight: the softmax of the logits, times the values, times the head's block of the
    final weight. -/
def headV (kb : FVec F S8192x128 .bf16) (mk3 mv3 : Vec F S1x64x128 .f32) (wf3 : Vec F S1x128x128 .f32) :
    FVec F S8192x128 .f32 :=
  matmul dot_S8192x128_S128x128_S8192x128_1_0_0_1_n_n none
    (truncf .bf16 (matmul dot_S8192x64_S64x128_S8192x128_1_0_0_1_n_n none
      (truncf .bf16 (softmaxV (attV kb mk3)) bitsLt_bf16_f32)
      (truncf .bf16 (shapeCast S64x128 mv3 shapeCasts_S1x64x128_S64x128) bitsLt_bf16_f32)
      (constant S8192x128 .f32 0x00000000#32)) bitsLt_bf16_f32)
    (truncf .bf16 (shapeCast S128x128 wf3 shapeCasts_S1x128x128_S128x128) bitsLt_bf16_f32)
    (constant S8192x128 .f32 0x00000000#32)

/-- The whole body's stored value: from the zero splat, the eight heads added one after the other, then the bias row
    broadcast down the tile. -/
def bodyV (x0 : Vec F S8192x128 .f32) (x1 x2 : Vec F S8x64x128 .f32) (x3 : Vec F S8x128x128 .f32) (x4 : Vec F S128 .f32) :
    FVec F S8192x128 .f32 :=
  have kb : FVec F S8192x128 .bf16 := truncf .bf16 (View.ld x0 r0_0) bitsLt_bf16_f32
  addf (addf (addf (addf (addf (addf (addf (addf (addf (broadcast S8192x128 (Scalar.ofBits .f32 0x00000000#32))
    (headV kb (View.ld x1 r0_1) (View.ld x2 r0_1) (View.ld x3 r0_2)))
    (headV kb (View.ld x1 r0_3) (View.ld x2 r0_3) (View.ld x3 r0_4)))
    (headV kb (View.ld x1 r0_5) (View.ld x2 r0_5) (View.ld x3 r0_6)))
    (headV kb (View.ld x1 r0_7) (View.ld x2 r0_7) (View.ld x3 r0_8)))
    (headV kb (View.ld x1 r0_9) (View.ld x2 r0_9) (View.ld x3 r0_10)))
    (headV kb (View.ld x1 r0_11) (View.ld x2 r0_11) (View.ld x3 r0_12)))
    (headV kb (View.ld x1 r0_13) (View.ld x2 r0_13) (View.ld x3 r0_14)))
    (headV kb (View.ld x1 r0_15) (View.ld x2 r0_15) (View.ld x3 r0_16)))
    (broadcastTo S8192x128 (shapeCast S1x128 (View.ld x4 r0_17) shapeCasts_S128_S1x128) broadcasts_S1x128_S8192x128)

/-- The body's stored value as the imported modules name it — eighteen payload terms, the body cut at fixed statement
    counts and composed again — is that term: unfolding the payloads gives back the eight heads in order. -/
theorem payload_eq (x0 : Vec F S8192x128 .f32) (x1 x2 : Vec F S8x64x128 .f32) (x3 : Vec F S8x128x128 .f32) (x4 : Vec F S128 .f32) :
    k0_pay1 (k0_pay2 (View.ld x0 r0_0)) (k0_pay17 (k0_pay12 (k0_pay2 (View.ld x0 r0_0)) (k0_pay10 (k0_pay2 (View.ld x0 r0_0)) (k0_pay6 (k0_pay2 (View.ld x0 r0_0)) (k0_pay3 (View.ld x0 r0_0) (View.ld x1 r0_1) (View.ld x2 r0_1) (View.ld x3 r0_2)) (k0_pay4 (View.ld x1 r0_3)) (k0_pay5 (View.ld x2 r0_3)) (View.ld x3 r0_4)) (k0_pay7 (View.ld x2 r0_5)) (k0_pay8 (View.ld x3 r0_6)) (k0_pay9 (k0_pay2 (View.ld x0 r0_0)) (View.ld x1 r0_5)) (View.ld x1 r0_7) (View.ld x2 r0_7) (View.ld x3 r0_8)) (k0_pay11 (View.ld x1 r0_9)) (View.ld x2 r0_9) (View.ld x3 r0_10)) (k0_pay13 (View.ld x2 r0_11)) (k0_pay14 (View.ld x3 r0_12)) (k0_pay15 (k0_pay2 (View.ld x0 r0_0)) (View.ld x1 r0_11)) (k0_pay16 (k0_pay2 (View.ld x0 r0_0)) (View.ld x1 r0_11))) (k0_pay18 (k0_pay2 (View.ld x0 r0_0)) (View.ld x1 r0_13) (View.ld x2 r0_13) (View.ld x3 r0_14)) (View.ld x1 r0_15) (View.ld x2 r0_15) (View.ld x3 r0_16) (View.ld x4 r0_17)
      = bodyV x0 x1 x2 x3 x4 := rfl

end Cert.KernelIdeal.Heads

end
-- ==== Proof.HeadIdx.lean ====
/-
  The kernel's vector operations read at an index, at the ideal values: the three matrix products of a head as sums
  over their one contracted axis, the two lane reductions as a fold of max and a sum over the 64 slots, and the
  re-layings between them (a transposed operand, a leading unit axis dropped, a column broadcast along the slots, the
  bias row broadcast down the tile) as the operand at the index they name.
-/
import proofs.«104489_j45337674776981_1_alg».proof.Proof.Head

noncomputable section

open scoped BigOperators

namespace Cert.KernelIdeal.Heads

open Cert.KernelIdeal Cert.KernelIdeal.Gen Idealize.ShloMosaic Idealize.ShloMosaic.TcCoe Idealize.SL.Sem
open Idealize.ShloMosaic.ValueIdx

/-! ## The three matrix products: rows times columns over the one contracted axis -/

theorem lhs_att_0 (i : S8192x64.Idx) (q : dot_S8192x128_S128x64_S8192x64_1_0_0_1_n_n.contr.Idx) :
    (dot_S8192x128_S128x64_S8192x64_1_0_0_1_n_n.lhsIdx i q 0).val = (i 0).val := by
  unfold DotDims.lhsIdx
  rw [dif_neg (show ¬(0 : Fin S8192x128.rank) ∈ dot_S8192x128_S128x64_S8192x64_1_0_0_1_n_n.lhsBatch by decide), dif_pos (show (0 : Fin S8192x128.rank) ∈ dot_S8192x128_S128x64_S8192x64_1_0_0_1_n_n.lhsNonContracting by decide)]
  rfl
theorem lhs_att_1 (i : S8192x64.Idx) (q : dot_S8192x128_S128x64_S8192x64_1_0_0_1_n_n.contr.Idx) :
    (dot_S8192x128_S128x64_S8192x64_1_0_0_1_n_n.lhsIdx i q 1).val = (q ⟨0, by decide⟩).val :=
  dot_S8192x128_S128x64_S8192x64_1_0_0_1_n_n.lhsIdx_val_of_single rfl i q
theorem rhs_att_0 (i : S8192x64.Idx) (q : dot_S8192x128_S128x64_S8192x64_1_0_0_1_n_n.contr.Idx) :
    (dot_S8192x128_S128x64_S8192x64_1_0_0_1_n_n.rhsIdx i q 0).val = (q ⟨0, by decide⟩).val :=
  dot_S8192x128_S128x64_S8192x64_1_0_0_1_n_n.rhsIdx_val_of_single rfl i q
theorem rhs_att_1 (i : S8192x64.Idx) (q : dot_S8192x128_S128x64_S8192x64_1_0_0_1_n_n.contr.Idx) :
    (dot_S8192x128_S128x64_S8192x64_1_0_0_1_n_n.rhsIdx i q 1).val = (i 1).val := by
  unfold DotDims.rhsIdx
  rw [dif_neg (show ¬(1 : Fin S128x64.rank) ∈ dot_S8192x128_S128x64_S8192x64_1_0_0_1_n_n.rhsBatch by decide), dif_pos (show (1 : Fin S128x64.rank) ∈ dot_S8192x128_S128x64_S8192x64_1_0_0_1_n_n.rhsNonContracting by decide)]
  rfl

/-- Keys times transposed memory keys: entry (a, b) is the sum over the 128 key lanes. -/
theorem att_apply (l : FVec Ideal S8192x128 .bf16) (r : FVec Ideal S128x64 .bf16) (a : Fin 8192) (b : Fin 64) :
    matmul dot_S8192x128_S128x64_S8192x64_1_0_0_1_n_n none l r (constant S8192x64 .f32 0x00000000#32) (ix2 a b)
      = ∑ k : Fin 128, l (ix2 a k) * r (ix2 k b) := by
  simp only [matmul]
  rw [Ideal.matmul_constant_zero_apply, ← Equiv.sum_comp (contrEquiv1 dot_S8192x128_S128x64_S8192x64_1_0_0_1_n_n 128 rfl rfl).symm]
  refine Finset.sum_congr rfl fun k _ => ?_
  have hk := contrEquiv1_symm_val dot_S8192x128_S128x64_S8192x64_1_0_0_1_n_n 128 rfl rfl k
  have el : dot_S8192x128_S128x64_S8192x64_1_0_0_1_n_n.lhsIdx (ix2 a b) ((contrEquiv1 dot_S8192x128_S128x64_S8192x64_1_0_0_1_n_n 128 rfl rfl).symm k) = ix2 a k := funext fun c => Fin.ext (by
    match c with
    | ⟨0, _⟩ => exact lhs_att_0 _ _
    | ⟨1, _⟩ => exact (lhs_att_1 _ _).trans hk)
  have er : dot_S8192x128_S128x64_S8192x64_1_0_0_1_n_n.rhsIdx (ix2 a b) ((contrEquiv1 dot_S8192x128_S128x64_S8192x64_1_0_0_1_n_n 128 rfl rfl).symm k) = ix2 k b := funext fun c => Fin.ext (by
    match c with
    | ⟨0, _⟩ => exact (rhs_att_0 _ _).trans hk
    | ⟨1, _⟩ => exact rhs_att_1 _ _)
  rw [el, er]

theorem lhs_wv_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhs_wv_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhs_wv_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhs_wv_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- Softmax weights times memory values: entry (a, b) is the sum over the 64 slots. -/
theorem wv_apply (l : FVec Ideal S8192x64 .bf16) (r : FVec Ideal S64x128 .bf16) (a : Fin 8192) (b : Fin 128) :
    matmul dot_S8192x64_S64x128_S8192x128_1_0_0_1_n_n none l r (constant S8192x128 .f32 0x00000000#32) (ix2 a b)
      = ∑ k : Fin 64, l (ix2 a k) * r (ix2 k b) := by
  simp only [matmul]
  rw [Ideal.matmul_constant_zero_apply, ← Equiv.sum_comp (contrEquiv1 dot_S8192x64_S64x128_S8192x128_1_0_0_1_n_n 64 rfl rfl).symm]
  refine Finset.sum_congr rfl fun k _ => ?_
  have hk := contrEquiv1_symm_val dot_S8192x64_S64x128_S8192x128_1_0_0_1_n_n 64 rfl rfl k
  have el : dot_S8192x64_S64x128_S8192x128_1_0_0_1_n_n.lhsIdx (ix2 a b) ((contrEquiv1 dot_S8192x64_S64x128_S8192x128_1_0_0_1_n_n 64 rfl rfl).symm k) = ix2 a k := funext fun c => Fin.ext (by
    match c with
    | ⟨0, _⟩ => exact lhs_wv_0 _ _
    | ⟨1, _⟩ => exact (lhs_wv_1 _ _).trans hk)
  have er : dot_S8192x64_S64x128_S8192x128_1_0_0_1_n_n.rhsIdx (ix2 a b) ((contrEquiv1 dot_S8192x64_S64x128_S8192x128_1_0_0_1_n_n 64 rfl rfl).symm k) = ix2 k b := funext fun c => Fin.ext (by
    match c with
    | ⟨0, _⟩ => exact (rhs_wv_0 _ _).trans hk
    | ⟨1, _⟩ => exact rhs_wv_1 _ _)
  rw [el, er]

theorem lhs_pr_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_pr_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_pr_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_pr_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A head's output times its block of the final weight: entry (a, b) is the sum over the 128 value lanes. -/
theorem pr_apply (l : FVec Ideal S8192x128 .bf16) (r : FVec Ideal S128x128 .bf16) (a : Fin 8192) (b : Fin 128) :
    matmul dot_S8192x128_S128x128_S8192x128_1_0_0_1_n_n none l r (constant S8192x128 .f32 0x00000000#32) (ix2 a b)
      = ∑ k : Fin 128, l (ix2 a k) * r (ix2 k b) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 a b) ((contrEquiv1 dot_S8192x128_S128x128_S8192x128_1_0_0_1_n_n 128 rfl rfl).symm k) = ix2 a k := funext fun c => Fin.ext (by
    match c with
    | ⟨0, _⟩ => exact lhs_pr_0 _ _
    | ⟨1, _⟩ => exact (lhs_pr_1 _ _).trans hk)
  have er : dot_S8192x128_S128x128_S8192x128_1_0_0_1_n_n.rhsIdx (ix2 a b) ((contrEquiv1 dot_S8192x128_S128x128_S8192x128_1_0_0_1_n_n 128 rfl rfl).symm k) = ix2 k b := funext fun c => Fin.ext (by
    match c with
    | ⟨0, _⟩ => exact (rhs_pr_0 _ _).trans hk
    | ⟨1, _⟩ => exact rhs_pr_1 _ _)
  rw [el, er]

/-! ## The re-layings -/

section Layout
variable {α : Type}

/-- A head's [1, 64, 128] slice with its unit axis dropped, at (m, k), is the slice at (0, m, k). -/
theorem drop64_apply (v : S1x64x128.Idx → α) (m : Fin 64) (k : Fin 128) :
    shapeCast S64x128 v shapeCasts_S1x64x128_S64x128 (ix2 m k) = v (ix3 (0 : Fin 1) m k) :=
  shapeCast_apply v shapeCasts_S1x64x128_S64x128 (ix2 m k) (ix3 (0 : Fin 1) m k) (by
    rw [Shape.rowMajor_val_three, Shape.rowMajor_val_two]
    show ((0 : Nat) * 64 + m.val) * 128 + k.val = m.val * 128 + k.val
    omega)

/-- The same for the [1, 128, 128] slice of the final weight. -/
theorem drop128_apply (v : S1x128x128.Idx → α) (p : Fin 128) (o : Fin 128) :
    shapeCast S128x128 v shapeCasts_S1x128x128_S128x128 (ix2 p o) = v (ix3 (0 : Fin 1) p o) :=
  shapeCast_apply v shapeCasts_S1x128x128_S128x128 (ix2 p o) (ix3 (0 : Fin 1) p o) (by
    rw [Shape.rowMajor_val_three, Shape.rowMajor_val_two]
    show ((0 : Nat) * 128 + p.val) * 128 + o.val = p.val * 128 + o.val
    omega)

/-- The transposed memory keys at (k, m) are the keys at (m, k). -/
theorem transpose_mk_apply (v : S64x128.Idx → α) (k : Fin 128) (m : Fin 64) :
    transpose S128x64 [1, 0] v transposes_S64x128_p1_0_S128x64 (ix2 k m) = v (ix2 m k) :=
  transpose_apply [1, 0] v transposes_S64x128_p1_0_S128x64 (ix2 k m) (ix2 m k) (fun b => match b with
    | ⟨0, _⟩ => rfl
    | ⟨1, _⟩ => rfl)

/-- A per-row value made a column and broadcast along the 64 slots, at (a, m), is the value of row a. -/
theorem column_apply (v : S8192.Idx → α) (a : Fin 8192) (m : Fin 64) :
    broadcastTo S8192x64 (shapeCast S8192x1 v shapeCasts_S8192_S8192x1) broadcasts_S8192x1_S8192x64 (ix2 a m) = v (ix1 a) :=
  (broadcastTo_apply _ broadcasts_S8192x1_S8192x64 (ix2 a m) (ix2 a (0 : Fin 1)) (fun c => match c with
    | ⟨0, _⟩ => by show a.val = if (8192 : Nat) = 1 then 0 else a.val; rw [if_neg (by decide)]
    | ⟨1, _⟩ => by show (0 : Nat) = if (1 : Nat) = 1 then 0 else m.val; rw [if_pos rfl])).trans
  (shapeCast_apply v shapeCasts_S8192_S8192x1 (ix2 a (0 : Fin 1)) (ix1 a) (by
    rw [Shape.rowMajor_val_one, Shape.rowMajor_val_two]
    show a.val = a.val * 1 + 0
    omega))

/-- The bias made a row and broadcast down the tile, at (a, o), is the bias at o. -/
theorem biasrow_apply (v : S128.Idx → α) (a : Fin 8192) (o : Fin 128) :
    broadcastTo S8192x128 (shapeCast S1x128 v shapeCasts_S128_S1x128) broadcasts_S1x128_S8192x128 (ix2 a o) = v (ix1 o) :=
  (broadcastTo_apply _ broadcasts_S1x128_S8192x128 (ix2 a o) (ix2 (0 : Fin 1) o) (fun c => match c with
    | ⟨0, _⟩ => by show (0 : Nat) = if (1 : Nat) = 1 then 0 else a.val; rw [if_pos rfl]
    | ⟨1, _⟩ => by show o.val = if (128 : Nat) = 1 then 0 else o.val; rw [if_neg (by decide)])).trans
  (shapeCast_apply v shapeCasts_S128_S1x128 (ix2 (0 : Fin 1) o) (ix1 o) (by
    rw [Shape.rowMajor_val_one, Shape.rowMajor_val_two]
    show o.val = (0 : Nat) * 128 + o.val
    omega))

end Layout

/-! ## The two lane reductions -/

/-- Row a of the reduced vector, slot m put back, is (a, m). -/
theorem lift_row (a : Fin 8192) (m : Fin (S8192x64.size 1)) :
    reduces_S8192x64_S8192.lift (ix1 a) m = ix2 a (⟨m.val, m.isLt⟩ : Fin 64) := by
  funext c; apply Fin.ext
  match c with
  | ⟨0, _⟩ => rfl
  | ⟨1, _⟩ => rfl

/-- The row maximum the kernel takes: the fold of max from −∞ over the 64 slots. -/
theorem rowmax_apply (x : FVec Ideal S8192x64 .f32) (a : Fin 8192) :
    multiReduction .maximumf [1] S8192 x 0xFF800000#32 reduces_S8192x64_S8192 (.inl rfl) rfl (ix1 a)
      = (Finset.univ : Finset (Fin 64)).fold max Cert.BankAttn.negInf (fun m => x (ix2 a m)) := by
  refine (Ideal.multiReduction_maximumf_single x 0xFF800000#32 reduces_S8192x64_S8192 (.inl rfl) rfl (ix1 a)).trans ?_
  exact congrArg (fun f => Finset.fold max Cert.BankAttn.negInf f (Finset.univ : Finset (Fin 64)))
    (funext fun m => congrArg x (lift_row a m))

/-- The row sum the kernel takes: the sum over the 64 slots. -/
theorem rowsum_apply (x : FVec Ideal S8192x64 .f32) (a : Fin 8192) :
    multiReduction .add [1] S8192 x 0x00000000#32 reduces_S8192x64_S8192 (.inl rfl) rfl (ix1 a)
      = ∑ m : Fin 64, x (ix2 a m) := by
  refine (Ideal.multiReduction_add_single x 0x00000000#32 reduces_S8192x64_S8192 (.inl rfl) rfl (ix1 a)).trans ?_
  exact Finset.sum_congr rfl fun m _ => congrArg x (lift_row a m)

end Cert.KernelIdeal.Heads

end
-- ==== Proof.HeadValue.lean ====
/-
  One head, and the whole body, read at an index of the tile at the ideal values: the body's entry (a, o) is the row
  function of Spec.lean of key row a of the tile, the whole memory keys, memory values and final weight (as [8, ·, ·]
  arrays: head h's slice is the rectangle at offset (h, 0, 0)), and the bias.
-/
import proofs.«104489_j45337674776981_1_alg».proof.Proof.HeadIdx

noncomputable section

open scoped BigOperators

namespace Cert.KernelIdeal.Heads

open Cert.KernelIdeal Cert.KernelIdeal.Gen Idealize.ShloMosaic Idealize.ShloMosaic.TcCoe Idealize.SL.Sem
open Idealize.ShloMosaic.ValueIdx Cert.BankAttn

/-- The logits of the tile: row a, slot m. -/
theorem attV_apply (kb : FVec Ideal S8192x128 .bf16) (mk3 : Vec Ideal S1x64x128 .f32) (a : Fin 8192) (m : Fin 64) :
    attV kb mk3 (ix2 a m) = logits (fun k => kb (ix2 a k)) (fun m k => mk3 (ix3 (0 : Fin 1) m k)) m := by
  unfold attV
  refine (att_apply _ _ a m).trans ?_
  unfold logits
  refine Finset.sum_congr rfl fun k _ => ?_
  refine congrArg (kb (ix2 a k) * ·) ?_
  refine (transpose_mk_apply _ k m).trans ?_
  exact drop64_apply mk3 m k

/-- The shift of row a. -/
theorem shiftV_apply (A : FVec Ideal S8192x64 .f32) (a : Fin 8192) :
    shiftV A (ix1 a) = rowMax (fun m => A (ix2 a m)) := by
  unfold shiftV rowMax
  exact congrArg (max negInf) (rowmax_apply A a)

/-- The numerator at (a, m). -/
theorem numV_apply (A : FVec Ideal S8192x64 .f32) (a : Fin 8192) (m : Fin 64) :
    numV A (ix2 a m) = expShift (fun m' => A (ix2 a m')) m := by
  unfold numV expShift
  refine congrArg (fun z => Ideal.exp (A (ix2 a m) - z)) ?_
  exact (column_apply (shiftV A) a m).trans (shiftV_apply A a)

/-- The softmax weight at (a, m). -/
theorem softmaxV_apply (A : FVec Ideal S8192x64 .f32) (a : Fin 8192) (m : Fin 64) :
    softmaxV A (ix2 a m) = weight (fun m' => A (ix2 a m')) m := by
  unfold softmaxV weight
  refine congrArg₂ Ideal.div (numV_apply A a m) ?_
  refine (column_apply _ a m).trans ?_
  refine (rowsum_apply (numV A) a).trans ?_
  exact Finset.sum_congr rfl fun m' _ => numV_apply A a m'

/-- One head at (a, o): the head's projection of key row a. -/
theorem headV_apply (kb : FVec Ideal S8192x128 .bf16) (mk3 mv3 : Vec Ideal S1x64x128 .f32) (wf3 : Vec Ideal S1x128x128 .f32)
    (a : Fin 8192) (o : Fin 128) :
    headV kb mk3 mv3 wf3 (ix2 a o)
      = headProj (fun k => kb (ix2 a k)) (fun m k => mk3 (ix3 (0 : Fin 1) m k)) (fun m v => mv3 (ix3 (0 : Fin 1) m v))
          (fun v o' => wf3 (ix3 (0 : Fin 1) v o')) o := by
  unfold headV
  refine (pr_apply _ _ a o).trans ?_
  unfold headProj
  refine Finset.sum_congr rfl fun v _ => ?_
  refine congrArg₂ (· * ·) ?_ (drop128_apply wf3 v o)
  refine (wv_apply _ _ a v).trans ?_
  unfold headOut
  refine Finset.sum_congr rfl fun m _ => ?_
  refine congrArg₂ (· * ·) ?_ (drop64_apply mv3 m v)
  refine (softmaxV_apply _ a m).trans ?_
  exact congrArg (fun f => weight f m) (funext fun m' => attV_apply kb mk3 a m')

/-- Head h's [1, 64, 128] slice of an [8, 64, 128] bank, at (0, m, k), is the bank at (h, m, k). -/
theorem ld_bank (x : Vec Ideal S8x64x128 .f32) (hh : Fin 8)
    (inb : ∀ c, (![hh.val, 0, 0] : Fin 3 → Nat) c + S1x64x128.size c ≤ S8x64x128.size c) (m : Fin 64) (k : Fin 128) :
    View.ld x (Rect.unit (s := S8x64x128) ![hh.val, 0, 0] S1x64x128.size inb) (ix3 (0 : Fin 1) m k) = x (ix3 hh m k) :=
  congrArg x (funext fun c => Fin.ext (by
    match c with
    | ⟨0, _⟩ => show hh.val + 1 * 0 = hh.val; omega
    | ⟨1, _⟩ => show 0 + 1 * m.val = m.val; omega
    | ⟨2, _⟩ => show 0 + 1 * k.val = k.val; omega))

/-- The same for the [8, 128, 128] final weight. -/
theorem ld_wf (x : Vec Ideal S8x128x128 .f32) (hh : Fin 8)
    (inb : ∀ c, (![hh.val, 0, 0] : Fin 3 → Nat) c + S1x128x128.size c ≤ S8x128x128.size c) (p : Fin 128) (o : Fin 128) :
    View.ld x (Rect.unit (s := S8x128x128) ![hh.val, 0, 0] S1x128x128.size inb) (ix3 (0 : Fin 1) p o) = x (ix3 hh p o) :=
  congrArg x (funext fun c => Fin.ext (by
    match c with
    | ⟨0, _⟩ => show hh.val + 1 * 0 = hh.val; omega
    | ⟨1, _⟩ => show 0 + 1 * p.val = p.val; omega
    | ⟨2, _⟩ => show 0 + 1 * o.val = o.val; omega))

/-- Head h of the body at (a, o), from the whole banks. -/
theorem head_at (kb : FVec Ideal S8192x128 .bf16) (x1 x2 : Vec Ideal S8x64x128 .f32) (x3 : Vec Ideal S8x128x128 .f32) (hh : Fin 8)
    (inb1 : ∀ c, (![hh.val, 0, 0] : Fin 3 → Nat) c + S1x64x128.size c ≤ S8x64x128.size c)
    (inb3 : ∀ c, (![hh.val, 0, 0] : Fin 3 → Nat) c + S1x128x128.size c ≤ S8x128x128.size c) (a : Fin 8192) (o : Fin 128) :
    headV kb (View.ld x1 (Rect.unit (s := S8x64x128) ![hh.val, 0, 0] S1x64x128.size inb1))
        (View.ld x2 (Rect.unit (s := S8x64x128) ![hh.val, 0, 0] S1x64x128.size inb1))
        (View.ld x3 (Rect.unit (s := S8x128x128) ![hh.val, 0, 0] S1x128x128.size inb3)) (ix2 a o)
      = headProj (fun k => kb (ix2 a k)) (fun m k => x1 (ix3 hh m k)) (fun m v => x2 (ix3 hh m v)) (fun v o' => x3 (ix3 hh v o')) o := by
  refine (headV_apply _ _ _ _ a o).trans ?_
  have h1 : (fun (m : Fin 64) (k : Fin 128) => View.ld x1 (Rect.unit (s := S8x64x128) ![hh.val, 0, 0] S1x64x128.size inb1) (ix3 (0 : Fin 1) m k))
      = fun m k => x1 (ix3 hh m k) := funext fun m => funext fun k => ld_bank x1 hh inb1 m k
  have h2 : (fun (m : Fin 64) (v : Fin 128) => View.ld x2 (Rect.unit (s := S8x64x128) ![hh.val, 0, 0] S1x64x128.size inb1) (ix3 (0 : Fin 1) m v))
      = fun m v => x2 (ix3 hh m v) := funext fun m => funext fun v => ld_bank x2 hh inb1 m v
  have h3 : (fun (v : Fin 128) (o' : Fin 128) => View.ld x3 (Rect.unit (s := S8x128x128) ![hh.val, 0, 0] S1x128x128.size inb3) (ix3 (0 : Fin 1) v o'))
      = fun v o' => x3 (ix3 hh v o') := funext fun v => funext fun o' => ld_wf x3 hh inb3 v o'
  rw [h1, h2, h3]

/-- THE BODY AT (a, o): the row function of key row a of the tile against the whole banks, final weight and bias. -/
theorem bodyV_apply (x0 : Vec Ideal S8192x128 .f32) (x1 x2 : Vec Ideal S8x64x128 .f32) (x3 : Vec Ideal S8x128x128 .f32)
    (x4 : Vec Ideal S128 .f32) (a : Fin 8192) (o : Fin 128) :
    bodyV x0 x1 x2 x3 x4 (ix2 a o)
      = rowOut (fun k => x0 (ix2 a k)) (fun h m k => x1 (ix3 h m k)) (fun h m v => x2 (ix3 h m v))
          (fun h v o' => x3 (ix3 h v o')) (fun o' => x4 (ix1 o')) o := by
  have hz : (![0, 0] : Fin 2 → Nat) = fun _ => 0 := funext fun c => by fin_cases c <;> rfl
  have hz1 : (![0] : Fin 1 → Nat) = fun _ => 0 := funext fun c => by fin_cases c; rfl
  have hk : (fun k : Fin 128 => (truncf .bf16 (View.ld x0 r0_0) bitsLt_bf16_f32 : FVec Ideal S8192x128 .bf16) (ix2 a k))
      = fun k => x0 (ix2 a k) :=
    funext fun k => congrFun (View.ld_unit_zero (S := S8192x128) hz _ x0) (ix2 a k)
  have hb : View.ld x4 r0_17 (ix1 o) = x4 (ix1 o) := congrFun (View.ld_unit_zero (S := S128) hz1 _ x4) (ix1 o)
  have key : ∀ (hh : Fin 8) inb1 inb3,
      headV (truncf .bf16 (View.ld x0 r0_0) bitsLt_bf16_f32) (View.ld x1 (Rect.unit (s := S8x64x128) ![hh.val, 0, 0] S1x64x128.size inb1))
        (View.ld x2 (Rect.unit (s := S8x64x128) ![hh.val, 0, 0] S1x64x128.size inb1))
        (View.ld x3 (Rect.unit (s := S8x128x128) ![hh.val, 0, 0] S1x128x128.size inb3)) (ix2 a o)
      = headProj (fun k => x0 (ix2 a k)) (fun m k => x1 (ix3 hh m k)) (fun m v => x2 (ix3 hh m v)) (fun v o' => x3 (ix3 hh v o')) o :=
    fun hh inb1 inb3 => (head_at _ x1 x2 x3 hh inb1 inb3 a o).trans (by rw [hk])
  unfold bodyV rowOut
  rw [← add8]
  refine congrArg₂ (· + ·) ?_ ((biasrow_apply (View.ld x4 r0_17) a o).trans hb)
  refine congrArg₂ (· + ·) (congrArg₂ (· + ·) (congrArg₂ (· + ·) (congrArg₂ (· + ·) (congrArg₂ (· + ·) (congrArg₂ (· + ·)
    (congrArg₂ (· + ·) (congrArg₂ (· + ·) Ideal.ofBits_zero_f32 (key 0 _ _)) (key 1 _ _)) (key 2 _ _)) (key 3 _ _)) (key 4 _ _))
    (key 5 _ _)) (key 6 _ _)) (key 7 _ _)

end Cert.KernelIdeal.Heads

end
-- ==== Proof.KernelValue.lean ====
/-
  The kernel's result array after the run. At grid point t the body sees rows 8192·t … 8192·t + 8191 of the key
  array and the whole memory keys, memory values, final weight (the host's reshape of the [1024, 128] argument to
  [8, 128, 128]: entry (h, v, o) is row 128·h + v) and bias, and writes back block t of the output; so what point t
  writes is block t of `G` of those arrays (HeadValue.lean reads the body at an index), the 32 blocks tile the
  262144 rows (row n lies in block n / 8192), and the array ends at `G`.
-/
import proofs.«104489_j45337674776981_1_alg».proof.Proof.HeadValue
import proofs.«104489_j45337674776981_1_alg».proof.Proof.Gen.KernelIdeal.Value
import Idealize.ShloMosaic.Lib.StableHlo.Run

noncomputable section

open scoped BigOperators

namespace Cert.KernelIdeal.Hand

open Cert.KernelIdeal Cert.KernelIdeal.Gen Cert.KernelIdeal.Value Cert.KernelIdeal.Heads
open Idealize.ShloMosaic Idealize.ShloMosaic.TcCoe Idealize.SL.Sem Idealize.ShloMosaic.StableHlo
open Idealize.ShloMosaic.Pipeline (Dat)
open Idealize.ShloMosaic.ValueIdx Cert.BankAttn

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the key window and the output window move down the rows with the point;
    the other four stay at block zero. -/
theorem idx_facts : ∀ t : Fin cfg0.N, win0_0.index t (0 : Fin 2) = t.val ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 3) = 0 ∧ win0_3.index t (1 : Fin 3) = 0 ∧ win0_3.index t (2 : Fin 3) = 0
    ∧ win0_4.index t (0 : Fin 1) = 0
    ∧ win0_5.index t (0 : Fin 2) = t.val ∧ win0_5.index t (1 : Fin 2) = 0 :=
  (by decide +kernel : ∀ t : Fin grid0.N, _)

/-- The result array: `G` of the key array, the memory keys and values as @main's host operations leave them,
    the final weight and the bias. -/
def result (c : Dev nD) : Buf (Elt Ideal) ((c : Thread nD τ).loc main_v20) :=
  G (m ((c : Thread nD τ).loc main_arg0)) (V m c main_v14) (V m c main_v18) (m ((c : Thread nD τ).loc main_arg6))
    (m ((c : Thread nD τ).loc main_arg7))

/-! ## The input blocks at a point -/

/-- The key window's block at point t is rows 8192·t … of the key array. -/
theorem iblk0_apply (c : Dev nD) (t : Fin cfg0.N) (x : S8192x128.Idx) (i : S262144x128.Idx)
    (h0 : (i 0).val = 8192 * t.val + (x 0).val) (h1 : (i 1).val = (x 1).val) :
    (iblk m c 0 t : Vec Ideal S8192x128 .f32) x = (m ((c : Thread nD τ).loc main_arg0) : S262144x128.Idx → EReal) i := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 8192 + 1 * (x 0).val = (i 0).val; rw [e0, h0]; omega
  | ⟨1, _⟩ => show win0_0.index t (1 : Fin 2) * 128 + 1 * (x 1).val = (i 1).val; rw [e1, h1]; omega

/-- The memory keys' window holds the whole array at every point. -/
theorem iblk1_eq (c : Dev nD) (t : Fin cfg0.N) :
    (iblk m c 1 t : Vec Ideal S8x64x128 .f32) = (V m c main_v14 : S8x64x128.Idx → EReal) := by
  obtain ⟨-, -, e0, e1, e2, -⟩ := idx_facts t
  funext x
  unfold iblk
  rw [View.read_apply]
  show V m c main_v14 _ = V m c main_v14 x
  congr 1
  funext a
  apply Fin.ext
  match a with
  | ⟨0, _⟩ => show win0_1.index t (0 : Fin 3) * 8 + 1 * (x 0).val = (x 0).val; rw [e0]; omega
  | ⟨1, _⟩ => show win0_1.index t (1 : Fin 3) * 64 + 1 * (x 1).val = (x 1).val; rw [e1]; omega
  | ⟨2, _⟩ => show win0_1.index t (2 : Fin 3) * 128 + 1 * (x 2).val = (x 2).val; rw [e2]; omega

/-- The memory values' window likewise. -/
theorem iblk2_eq (c : Dev nD) (t : Fin cfg0.N) :
    (iblk m c 2 t : Vec Ideal S8x64x128 .f32) = (V m c main_v18 : S8x64x128.Idx → EReal) := by
  obtain ⟨-, -, -, -, -, e0, e1, e2, -⟩ := idx_facts t
  funext x
  unfold iblk
  rw [View.read_apply]
  show V m c main_v18 _ = V m c main_v18 x
  congr 1
  funext a
  apply Fin.ext
  match a with
  | ⟨0, _⟩ => show win0_2.index t (0 : Fin 3) * 8 + 1 * (x 0).val = (x 0).val; rw [e0]; omega
  | ⟨1, _⟩ => show win0_2.index t (1 : Fin 3) * 64 + 1 * (x 1).val = (x 1).val; rw [e1]; omega
  | ⟨2, _⟩ => show win0_2.index t (2 : Fin 3) * 128 + 1 * (x 2).val = (x 2).val; rw [e2]; omega

/-- The final weight's window holds the whole reshaped array. -/
theorem iblk3_eq (c : Dev nD) (t : Fin cfg0.N) :
    (iblk m c 3 t : Vec Ideal S8x128x128 .f32) = (V m c main_v19 : S8x128x128.Idx → EReal) := by
  obtain ⟨-, -, -, -, -, -, -, -, e0, e1, e2, -⟩ := idx_facts t
  funext x
  unfold iblk
  rw [View.read_apply]
  show V m c main_v19 _ = V m c main_v19 x
  congr 1
  funext a
  apply Fin.ext
  match a with
  | ⟨0, _⟩ => show win0_3.index t (0 : Fin 3) * 8 + 1 * (x 0).val = (x 0).val; rw [e0]; omega
  | ⟨1, _⟩ => show win0_3.index t (1 : Fin 3) * 128 + 1 * (x 1).val = (x 1).val; rw [e1]; omega
  | ⟨2, _⟩ => show win0_3.index t (2 : Fin 3) * 128 + 1 * (x 2).val = (x 2).val; rw [e2]; omega

/-- The bias window holds the whole bias. -/
theorem iblk4_eq (c : Dev nD) (t : Fin cfg0.N) :
    (iblk m c 4 t : Vec Ideal S128 .f32) = (m ((c : Thread nD τ).loc main_arg7) : S128.Idx → EReal) := by
  obtain ⟨-, -, -, -, -, -, -, -, -, -, -, e0, -⟩ := idx_facts t
  funext x
  unfold iblk
  rw [View.read_apply]
  show V m c main_arg7 _ = _
  rw [V_main_arg7]
  congr 1
  funext a
  apply Fin.ext
  match a with
  | ⟨0, _⟩ => show win0_4.index t (0 : Fin 1) * 128 + 1 * (x 0).val = (x 0).val; rw [e0]; omega

/-- The host's reshape of the final weight: entry (h, v, o) of the [8, 128, 128] array is row 128·h + v, column o. -/
theorem wf3_apply (c : Dev nD) (h : Fin 8) (v o : Fin 128) :
    (V m c main_v19 : S8x128x128.Idx → EReal) (ix3 h v o)
      = (m ((c : Thread nD τ).loc main_arg6) : S1024x128.Idx → EReal) (ix2 (wrow h v) o) := by
  have e : (V m c main_v19 : S8x128x128.Idx → EReal)
      = shapeCast S8x128x128 (m ((c : Thread nD τ).loc main_arg6) : S1024x128.Idx → EReal) shapeCasts_S1024x128_S8x128x128 := by
    dsimp only [Gen.V, Gen.hostOps0]; after_results; rfl
  rw [e]
  exact shapeCast_apply _ shapeCasts_S1024x128_S8x128x128 (ix3 h v o) (ix2 (wrow h v) o) (by
    rw [Shape.rowMajor_val_two, Shape.rowMajor_val_three]
    show (128 * h.val + v.val) * 128 + o.val = (h.val * 128 + v.val) * 128 + o.val
    omega)

/-! ## What a point writes back, the cover, the array -/

/-- The body's stored value, entry by entry over a tile index y. -/
theorem bodyV_at (x0 : Vec Ideal S8192x128 .f32) (x1 x2 : Vec Ideal S8x64x128 .f32) (x3 : Vec Ideal S8x128x128 .f32)
    (x4 : Vec Ideal S128 .f32) (y : S8192x128.Idx) :
    bodyV x0 x1 x2 x3 x4 y
      = rowOut (fun k => x0 (ix2 (y 0) k)) (fun h mm k => x1 (ix3 h mm k)) (fun h mm v => x2 (ix3 h mm v))
          (fun h v o' => x3 (ix3 h v o')) (fun o' => x4 (ix1 o')) (y 1) := by
  exact (congrArg (bodyV x0 x1 x2 x3 x4) (eq_ix2 y)).trans (bodyV_apply x0 x1 x2 x3 x4 (y 0) (y 1))

/-- WHAT POINT t WRITES BACK is block t of the result. -/
theorem flushed_eq (c : Dev nD) (t : Fin cfg0.N) :
    (dats m 0 c).flushed 5 t = ((cfg0.win 5).blk t).view.read (Elt Ideal) (result m c) := by
  obtain ⟨-, -, -, -, -, -, -, -, -, -, -, -, e0, e1⟩ := idx_facts t
  have ht : t.val < 32 := lt_of_lt_of_eq t.isLt (N_0 : cfg0.N = 32)
  rw [flushed5]
  unfold out0_5
  rw [View.canon_unit_zero hz, payload_eq]
  funext y
  show bodyV (iblk m c 0 t) (iblk m c 1 t) (iblk m c 2 t) (iblk m c 3 t) (iblk m c 4 t) y
    = result m c (((cfg0.win 5).blk t).view.emb y)
  rw [bodyV_at, iblk1_eq, iblk2_eq, iblk3_eq, iblk4_eq]
  have hy0 : (y 0).val < 8192 := (y 0).isLt
  have hi0 : ((((cfg0.win 5).blk t).view.emb y) 0).val = 8192 * t.val + (y 0).val := by
    show win0_5.index t (0 : Fin 2) * 8192 + 1 * (y 0).val = _; rw [e0]; omega
  have hi1 : ((((cfg0.win 5).blk t).view.emb y) 1).val = (y 1).val := by
    show win0_5.index t (1 : Fin 2) * 128 + 1 * (y 1).val = _; rw [e1]; omega
  unfold result G
  have hrow : (fun k : Fin 128 => (iblk m c 0 t : Vec Ideal S8192x128 .f32) (ix2 (y 0) k))
      = fun k => (m ((c : Thread nD τ).loc main_arg0) : S262144x128.Idx → EReal) (ix2 ((((cfg0.win 5).blk t).view.emb y) 0) k) :=
    funext fun k => iblk0_apply m c t (ix2 (y 0) k) (ix2 ((((cfg0.win 5).blk t).view.emb y) 0) k) hi0 rfl
  have hw : (fun (h : Fin 8) (v o' : Fin 128) => (V m c main_v19 : S8x128x128.Idx → EReal) (ix3 h v o'))
      = fun h v o' => (m ((c : Thread nD τ).loc main_arg6) : S1024x128.Idx → EReal) (ix2 (wrow h v) o') :=
    funext fun h => funext fun v => funext fun o' => wf3_apply m c h v o'
  have ho : (y 1 : Fin 128) = (((cfg0.win 5).blk t).view.emb y) 1 := Fin.ext hi1.symm
  rw [hrow, hw, ho]

/-- An index of the array is in point t's block iff each coordinate is in the block's range on its axis. -/
theorem mem_blk5 (t : Fin cfg0.N) (i : S262144x128.Idx) :
    i ∈ ((cfg0.win 5).blk t).view.set ↔ ∀ a : Fin 2, win0_5.index t a * S8192x128.size a ≤ (i a).val ∧ (i a).val < win0_5.index t a * S8192x128.size a + S8192x128.size a := by
  show i ∈ ((View.whole main_v20).slice (win0_5.rect t)).set ↔ _
  rw [View.set_slice_whole, Rect.mem_set_unit]
  exact Iff.rfl

/-- Every row lies in the block of the point n / 8192. -/
theorem cover5 (i : S262144x128.Idx) : ∃ t : Fin cfg0.N, (cfg0.win 5).flush t = true ∧ i ∈ ((cfg0.win 5).blk t).view.set := by
  have hi0 : (i 0).val < 262144 := (i 0).isLt
  have hi1 : (i 1).val < 128 := (i 1).isLt
  have hN : cfg0.N = 32 := N_0
  refine ⟨⟨(i 0).val / 8192, by rw [hN]; omega⟩, flush0_5 _, ?_⟩
  obtain ⟨-, -, -, -, -, -, -, -, -, -, -, -, e0, e1⟩ := idx_facts ⟨(i 0).val / 8192, by rw [hN]; omega⟩
  rw [mem_blk5]
  intro a
  match a with
  | ⟨0, _⟩ =>
    show win0_5.index _ (0 : Fin 2) * 8192 ≤ (i 0).val ∧ (i 0).val < win0_5.index _ (0 : Fin 2) * 8192 + 8192
    rw [e0]; show (i 0).val / 8192 * 8192 ≤ (i 0).val ∧ (i 0).val < (i 0).val / 8192 * 8192 + 8192; omega
  | ⟨1, _⟩ =>
    show win0_5.index _ (1 : Fin 2) * 128 ≤ (i 1).val ∧ (i 1).val < win0_5.index _ (1 : Fin 2) * 128 + 128
    rw [e1]; omega

/-- THE ARRAY after the run is the result. -/
theorem final (c : Dev nD) : (dats m 0 c).arrAt 5 cfg0.N = result m c :=
  (dats m 0 c).arrAt_eq_of_cover 5 (result m c) (fun t _ => flushed_eq m c t) cover5

/-- The run, read: the result array at `result`, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Hand

end
-- ==== Proof.RefValue.lean ====
/-
  The reference, read index by index, is the row function of Spec.lean.
  Its @main forms the logits of every (head, row, slot) by one contraction against the key array and a transpose, takes
  the shifted softmax along the slots (a max fold from −∞ joined with −∞ again, a subtraction, an exponential, a sum
  from zero, a quotient), contracts with the memory values per head, lays the eight heads side by side in a
  [262144, 1024] array (a transpose and a reshape: column 128·h + v is head h, lane v), multiplies by the whole
  1024-row final weight and adds the bias. Stage by stage this is `logits`, `rowMax`, `expShift`, `weight`,
  `headOut`, and the sum over the 1024 columns split as heads × lanes is `∑ h, headProj`.
  The memory keys and values (the first eighteen operations, the same in both programs) are left as the stages
  `val_main_v14` and `val_main_v18`: nothing here opens them.
-/
import proofs.«104489_j45337674776981_1_alg».proof.Proof.Gen.ReferenceIdeal.Read
import proofs.«104489_j45337674776981_1_alg».proof.Proof.Spec
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.BankAttn

variable (x0 : (⟨S262144x128, .f32⟩ : BufTy).Contents (Elt Ideal)) (x1 : (⟨S8x64x128, .f32⟩ : BufTy).Contents (Elt Ideal))
  (x2 : (⟨S8x128x128, .f32⟩ : BufTy).Contents (Elt Ideal)) (x3 : (⟨S8x128, .f32⟩ : BufTy).Contents (Elt Ideal))
  (x4 : (⟨S8x128x128, .f32⟩ : BufTy).Contents (Elt Ideal)) (x5 : (⟨S8x128, .f32⟩ : BufTy).Contents (Elt Ideal))
  (x6 : (⟨S1024x128, .f32⟩ : BufTy).Contents (Elt Ideal)) (x7 : (⟨S128, .f32⟩ : BufTy).Contents (Elt Ideal))

/-- The key row n. -/
abbrev krow (n : Fin 262144) : Fin 128 → EReal := fun k => x0 (ix2 n k)
/-- Head h's memory keys, as the host prefix leaves them. -/
abbrev mkOf (h : Fin 8) : Fin 64 → Fin 128 → EReal := fun m k => val_main_v14 (F := Ideal) x1 x2 x3 (ix3 h m k)
/-- Head h's memory values, as the host prefix leaves them. -/
abbrev mvOf (h : Fin 8) : Fin 64 → Fin 128 → EReal := fun m v => val_main_v18 (F := Ideal) x1 x4 x5 (ix3 h m v)

/-- The transposed contraction at (h, n, m) is row n's logit against slot m of head h (the two factors in the other order). -/
theorem logit_eq (h : Fin 8) (n : Fin 262144) (m : Fin 64) :
    val_main_v20 (F := Ideal) x0 x1 x2 x3 (ix3 h n m) = logits (krow x0 n) (mkOf x1 x2 x3 h) m := by
  rw [val_main_v20_apply, val_main_v19_apply]
  unfold logits
  refine Finset.sum_congr rfl fun k _ => ?_
  have e1 : lidx_main_v19 (idx_main_v20 (ix3 h n m)) k = ix3 h m k := funext fun a => Fin.ext (by
    match a with
    | ⟨0, _⟩ => rfl
    | ⟨1, _⟩ => rfl
    | ⟨2, _⟩ => rfl)
  have e2 : ridx_main_v19 (idx_main_v20 (ix3 h n m)) k = ix2 n k := funext fun a => Fin.ext (by
    match a with
    | ⟨0, _⟩ => rfl
    | ⟨1, _⟩ => rfl)
  rw [e1, e2]
  exact mul_comm _ _

/-- (h, n) of the reduced array, slot m put back, is (h, n, m). -/
theorem lift_slot (hr : S8x262144x64.Reduces [2] S8x262144) (h : Fin 8) (n : Fin 262144) (m : Fin (S8x262144x64.size 2)) :
    hr.lift (ix2 h n) m = ix3 h n (⟨m.val, m.isLt⟩ : Fin 64) := by
  funext c; apply Fin.ext
  match c with
  | ⟨0, _⟩ => rfl
  | ⟨1, _⟩ => rfl
  | ⟨2, _⟩ => rfl

/-- The softmax's shift at (h, n): the max fold of the row's logits from −∞, joined with −∞. -/
theorem shift_eq (h : Fin 8) (n : Fin 262144) :
    val_main_v23 (F := Ideal) x0 x1 x2 x3 (ix2 h n) = rowMax (logits (krow x0 n) (mkOf x1 x2 x3 h)) := by
  have hr : S8x262144x64.Reduces [2] S8x262144 := by decide
  rw [val_main_v23_apply, val_main_v22_apply, val_main_cst_3_apply]
  unfold val_main_v21 rowMax
  refine congrArg (max negInf) ?_
  refine (Host.reduce_eq_fold_single (FloatOps.maximumf (F := Ideal) (φ := .f32)) (val_main_v20 (F := Ideal) x0 x1 x2 x3) (val_main_cst_2 (F := Ideal))
    reducesTo_S8x262144x64_S8x262144_d2 hr h_S_ (ix2 h n)).trans ?_
  exact congrArg (fun f => Finset.fold max negInf f (Finset.univ : Finset (Fin 64)))
    (funext fun m => (congrArg (val_main_v20 (F := Ideal) x0 x1 x2 x3) (lift_slot hr h n m)).trans (logit_eq x0 x1 x2 x3 h n _))

/-- The numerator at (h, n, m). -/
theorem num_eq (h : Fin 8) (n : Fin 262144) (m : Fin 64) :
    val_main_v27 (F := Ideal) x0 x1 x2 x3 (ix3 h n m) = expShift (logits (krow x0 n) (mkOf x1 x2 x3 h)) m := by
  rw [val_main_v27_apply, val_main_v26_apply, val_main_v25_apply, val_main_v24_apply]
  have e : idx_main_v24 (idx_main_v25 (ix3 h n m)) = ix2 h n := funext fun a => Fin.ext (by
    match a with
    | ⟨0, _⟩ => rfl
    | ⟨1, _⟩ => rfl)
  rw [e, shift_eq, logit_eq]
  rfl

/-- The softmax weight at (h, n, m): the numerator over the sum of the row's numerators (the host's sum starts from zero). -/
theorem weight_eq (h : Fin 8) (n : Fin 262144) (m : Fin 64) :
    val_main_v31 (F := Ideal) x0 x1 x2 x3 (ix3 h n m) = weight (logits (krow x0 n) (mkOf x1 x2 x3 h)) m := by
  rw [val_main_v31_apply, val_main_v30_apply, val_main_v29_apply, val_main_v28_apply, val_main_cst_4_apply, num_eq]
  unfold weight
  have e : ∀ k : Fin 64, idx_main_v28 (idx_main_v29 (idx_main_v30 (ix3 h n m))) k = ix3 h n k := fun k => funext fun a => Fin.ext (by
    match a with
    | ⟨0, _⟩ => rfl
    | ⟨1, _⟩ => rfl
    | ⟨2, _⟩ => rfl)
  simp only [e, num_eq]
  show Ideal.div _ (Ideal.ofBits .f32 0x00000000#32 + _) = _
  rw [Ideal.ofBits_zero_f32, zero_add]

/-- One head's output at (h, n, v). -/
theorem head_eq (h : Fin 8) (n : Fin 262144) (v : Fin 128) :
    val_main_v32 (F := Ideal) x0 x1 x2 x3 x4 x5 (ix3 h n v) = headOut (krow x0 n) (mkOf x1 x2 x3 h) (mvOf x1 x4 x5 h) v := by
  rw [val_main_v32_apply]
  unfold headOut
  refine Finset.sum_congr rfl fun m _ => ?_
  have e1 : lidx_main_v32 (ix3 h n v) m = ix3 h n m := funext fun a => Fin.ext (by
    match a with
    | ⟨0, _⟩ => rfl
    | ⟨1, _⟩ => rfl
    | ⟨2, _⟩ => rfl)
  have e2 : ridx_main_v32 (ix3 h n v) m = ix3 h m v := funext fun a => Fin.ext (by
    match a with
    | ⟨0, _⟩ => rfl
    | ⟨1, _⟩ => rfl
    | ⟨2, _⟩ => rfl)
  rw [e1, e2, weight_eq]

/-- THE REFERENCE'S RESULT is `G` of the arguments and the two host-prefix stages. -/
theorem ref_eq :
    val_main_v38 (F := Ideal) x0 x1 x2 x3 x4 x5 x6 x7
      = G x0 (val_main_v14 (F := Ideal) x1 x2 x3) (val_main_v18 (F := Ideal) x1 x4 x5) x6 x7 := by
  funext i
  obtain ⟨n, o, rfl⟩ : ∃ (n : Fin 262144) (o : Fin 128), i = ix2 n o := ⟨i 0, i 1, eq_ix2 i⟩
  rw [val_main_v38_apply, val_main_v37_apply, val_main_v36_apply, val_main_v35_apply, sum_heads_lanes]
  unfold G rowOut
  refine congrArg₂ (· + ·) ?_ ?_
  · refine Finset.sum_congr rfl fun h _ => ?_
    unfold headProj
    refine Finset.sum_congr rfl fun v _ => ?_
    rw [val_main_v34_apply, val_main_v33_apply]
    have e : idx_main_v33 (idx_main_v34 (lidx_main_v35 (ix2 n o) (wrow h v))) = ix3 h n v := funext fun a => Fin.ext (by
      have hh : h.val < 8 := h.isLt
      have hv : v.val < 128 := v.isLt
      have hn : n.val < 262144 := n.isLt
      match a with
      | ⟨0, _⟩ => show (n.val * 1024 + (128 * h.val + v.val)) / 128 % 8 = h.val; omega
      | ⟨1, _⟩ => show (n.val * 1024 + (128 * h.val + v.val)) / 1024 = n.val; omega
      | ⟨2, _⟩ => show (n.val * 1024 + (128 * h.val + v.val)) % 128 = v.val; omega)
    have e' : ridx_main_v35 (ix2 n o) (wrow h v) = ix2 (wrow h v) o := funext fun a => Fin.ext (by
      match a with
      | ⟨0, _⟩ => rfl
      | ⟨1, _⟩ => rfl)
    rw [e, e', head_eq]
  · exact congrArg x7 (funext fun a => Fin.ext (by
      match a with
      | ⟨0, _⟩ => rfl))

end Cert.ReferenceIdeal.RefValue

end
-- ==== Proof.lean ====
/-
  The claims of this certificate: a Pallas kernel for attention of 262144 key rows against eight heads' memory banks
  (64 slots each), fused with the final projection, against its jnp reference, over the extended reals.

  Both programs begin with the same eighteen host operations, which make the memory keys (a softmax over the key lanes
  of mems · Wk + bk) and the memory values (mems · Wv + bv); nothing below opens them: they are the same term of the
  arguments on both sides. After that, for a key row x, head h computes the logits a m = ∑ k, x k · key h m k, the
  shifted softmax over the 64 slots, the weighted memory values, and their product with the head's 128 × 128 block of
  the final weight; the row's result is the eight heads' products summed, plus the bias.
  The kernel does this tile by tile (8192 rows a grid point, 32 points), head by head, adding each head's projection
  onto an accumulator that starts at zero, with the final weight reshaped to [8, 128, 128]. The reference forms every
  (head, row, slot) logit at once, lays the eight heads' outputs side by side in a [262144, 1024] array and multiplies by
  the whole 1024-row final weight. The two agree because a finite sum over 1024 = 8 × 128 columns is the double sum
  over heads and lanes, and eight terms added in turn onto zero are their sum: additions re-grouped and re-ordered, which
  hold on all extended reals, so the finiteness of the inputs is never used. The two programs multiply the logit's
  factors in opposite orders (commutativity). Format changes (the kernel's bf16 roundings) are the identity at the ideal
  values, and each program's max reduction, sum reduction and matrix products are read as folds and sums over their one
  reduced axis.
  Spec.lean states the row function; RefValue.lean shows the reference's result is it, stage by stage; Head.lean,
  HeadIdx.lean and HeadValue.lean read the kernel body at an index of a tile; KernelValue.lean carries that from the
  blocks to the whole array. The three frames are the generated ones; the idealization rewrote nothing.
-/
import proofs.«104489_j45337674776981_1_alg».proof.Defs
import proofs.«104489_j45337674776981_1_alg».proof.Proof.Gen.Kernel
import proofs.«104489_j45337674776981_1_alg».proof.Proof.Gen.Kernel.Skeleton
import proofs.«104489_j45337674776981_1_alg».proof.Proof.Gen.Kernel.Launch
import proofs.«104489_j45337674776981_1_alg».proof.Proof.Gen.Kernel.Points
import proofs.«104489_j45337674776981_1_alg».proof.Proof.Gen.Kernel.Frame
import proofs.«104489_j45337674776981_1_alg».proof.Proof.Gen.KernelIdeal
import proofs.«104489_j45337674776981_1_alg».proof.Proof.Gen.KernelIdeal.Skeleton
import proofs.«104489_j45337674776981_1_alg».proof.Proof.Gen.KernelIdeal.Launch
import proofs.«104489_j45337674776981_1_alg».proof.Proof.Gen.KernelIdeal.Points
import proofs.«104489_j45337674776981_1_alg».proof.Proof.Gen.KernelIdeal.Frame
import proofs.«104489_j45337674776981_1_alg».proof.Proof.Gen.ReferenceIdeal
import proofs.«104489_j45337674776981_1_alg».proof.Proof.Gen.Pre_finite_inputs
import proofs.«104489_j45337674776981_1_alg».proof.Proof.Gen.KernelIdeal.Value
import proofs.«104489_j45337674776981_1_alg».proof.Proof.Gen.ReferenceIdeal.Run
import proofs.«104489_j45337674776981_1_alg».proof.Proof.Gen.ReferenceIdeal.Read
import proofs.«104489_j45337674776981_1_alg».proof.Proof.KernelValue
import proofs.«104489_j45337674776981_1_alg».proof.Proof.RefValue
import Idealize.ShloMosaic.Lib.StableHlo.Run
import Idealize.ShloMosaic.Adequacy
import Idealize.ShloMosaic.Init

noncomputable section

namespace Cert.Proof

open Idealize.ShloMosaic Idealize.ShloMosaic.TcCoe Idealize.SL.Sem Idealize.ShloMosaic.StableHlo

/-- The kernel's memory keys, as its host operations leave them, are the reference's stage of the same arguments. -/
theorem memkeys_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v14 : Cert.KernelIdeal.S8x64x128.Idx → EReal)
      = Cert.ReferenceIdeal.Read.val_main_v14 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  dsimp only [Cert.KernelIdeal.Gen.V, Cert.KernelIdeal.Gen.hostOps0]; after_results; rfl

/-- The kernel's memory values likewise. -/
theorem memvals_eq (m : (ℓ : Loc Cert.KernelIdeal.nD Cert.KernelIdeal.τ Cert.KernelIdeal.sig) → Buf (Elt Ideal) ℓ) (c : Dev Cert.KernelIdeal.nD) :
    (Cert.KernelIdeal.Gen.V m c Cert.KernelIdeal.main_v18 : Cert.KernelIdeal.S8x64x128.Idx → EReal)
      = Cert.ReferenceIdeal.Read.val_main_v18 (F := Ideal)
          (m ((c.tc : Thread Cert.KernelIdeal.nD Cert.KernelIdeal.τ).loc Cert.KernelIdeal.main_arg1))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  dsimp only [Cert.KernelIdeal.Gen.V, Cert.KernelIdeal.Gen.hostOps0]; after_results; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- At the ideal values the kernel's result array ends at the row function of its arguments (KernelValue.lean) and the
    reference's at the same function of arguments that agree (RefValue.lean), the memory keys and values one term. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v38_eq, Cert.ReferenceIdeal.RefValue.ref_eq, a0, a1, a2, a3, a4, a5, a6, a7]
  show _ = Cert.KernelIdeal.Hand.result m c
  unfold Cert.KernelIdeal.Hand.result
  rw [memkeys_eq, memvals_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
